-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x8192x1024 : Shape := ⟨3, ![8, 8192, 1024]⟩
abbrev S8x1024x4096 : Shape := ⟨3, ![8, 1024, 4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x8192x1024 : S_.BroadcastsInDim S8x8192x1024 (![] : Fin 0 → Fin S8x8192x1024.rank)
  reducesTo_S8x8192x1024_S_d0_1_2 : S8x8192x1024.ReducesTo [0, 1, 2] S_
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn {F : FTy → Type} [FloatOps F] (main_arg0 : FVec F S8x2048x1024 .f32) (main_arg1 : FVec F S8x8192x1024 .f32) (main_arg2 : FVec F S8x1024x4096 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x8192x1024 .f32 := Host.absf main_arg1
  let main_cst_0 : FVec F S_ .f32 := constant S_ .f32 0x7F800000#32
  let main_v5 : FVec F S8x8192x1024 .f32 := broadcastInDim S8x8192x1024 ![] bcast_S_S8x8192x1024 main_cst_0
  let main_v6 : IVec S8x8192x1024 1 := cmpf .olt main_v4 main_v5
  let main_c_1 : IVec S_ 1 := constantI S_ 1 1#1
  let main_v7 : IVec S_ 1 := (fun x v => Host.reduce IntOp.andi x v reducesTo_S8x8192x1024_S_d0_1_2 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  main_v13
-- ==== Kernel.lean ====
abbrev S8x2048x1024 : Shape := ⟨3, ![8, 2048, 1024]⟩
abbrev S8x8192x1024 : Shape := ⟨3, ![8, 8192, 1024]⟩
abbrev S8x1024x4096 : Shape := ⟨3, ![8, 1024, 4096]⟩
abbrev S8x4096x1024 : Shape := ⟨3, ![8, 4096, 1024]⟩
abbrev S8x2048x4096 : Shape := ⟨3, ![8, 2048, 4096]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S1x512x4096 : Shape := ⟨3, ![1, 512, 4096]⟩
abbrev S1x1024x4096 : Shape := ⟨3, ![1, 1024, 4096]⟩
abbrev S512x4096 : Shape := ⟨2, ![512, 4096]⟩
abbrev S1024x4096 : Shape := ⟨2, ![1024, 4096]⟩

abbrev nBuf : Space → Nat
  | .hbm => 11
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x8192x1024, .f32⟩
  | .hbm, ⟨2, _⟩ => ⟨S8x1024x4096, .f32⟩
  | .hbm, ⟨3, _⟩ => ⟨S8x4096x1024, .f32⟩
  | .hbm, ⟨4, _⟩ => ⟨S8x4096x1024, .f32⟩
  | .hbm, ⟨5, _⟩ => ⟨S8x2048x1024, .bf16⟩
  | .hbm, ⟨6, _⟩ => ⟨S8x4096x1024, .bf16⟩
  | .hbm, ⟨7, _⟩ => ⟨S8x4096x1024, .bf16⟩
  | .hbm, ⟨8, _⟩ => ⟨S8x1024x4096, .bf16⟩
  | .hbm, ⟨9, _⟩ => ⟨S8x2048x4096, .bf16⟩
  | .hbm, ⟨10, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x1024x4096, .bf16⟩
  | .local _ .vmem, ⟨11, _⟩ => ⟨S1x1024x4096, .bf16⟩
  | .local _ .vmem, ⟨12, _⟩ => ⟨S1x512x1024, .f32⟩
  | .local _ .vmem, ⟨13, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S8x8192x1024_S8x4096x1024_0_0_0 : S8x8192x1024.Slices ![0, 0, 0] S8x4096x1024
  slices_S8x8192x1024_S8x4096x1024_0_4096_0 : S8x8192x1024.Slices ![0, 4096, 0] S8x4096x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  dot_S512x1024_S1024x1024_S512x1024_1_1_0_0_n_n_wf : DotDims.WF S512x1024 S1024x1024 S512x1024 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .bf16 = 32 ∨ (Rect.block (s := S8x4096x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x1024.size a
  hwx0_2 : ∀ i : grid0.Coords, EltTy.bits .bf16 = 32 ∨ (Rect.block (s := S8x4096x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x2048x4096.size a
  hwx0_3 : ∀ i : grid0.Coords, EltTy.bits .bf16 = 32 ∨ (Rect.block (s := S8x2048x4096) S1x512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S8x2048x4096.size a
  hwx1_0 : ∀ i : grid1.Coords, EltTy.bits .bf16 = 32 ∨ (Rect.block (s := S8x2048x4096) S1x512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x4096.size a ≤ S8x1024x4096.size a
  hwx1_1 : ∀ i : grid1.Coords, EltTy.bits .bf16 = 32 ∨ (Rect.block (s := S8x1024x4096) S1x1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .f32 = 32 ∨ (Rect.block (s := S8x2048x1024) S1x512x1024.size (cc1_transform_2 i) (hinb1_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v2) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x8192x1024 : Shape := ⟨3, ![8, 8192, 1024]⟩
abbrev S8x1024x4096 : Shape := ⟨3, ![8, 1024, 4096]⟩
abbrev S8x2048x8192 : Shape := ⟨3, ![8, 2048, 8192]⟩
abbrev S8x2048x4096 : Shape := ⟨3, ![8, 2048, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x8192x1024, .f32⟩
  | .hbm, ⟨2, _⟩ => ⟨S8x1024x4096, .f32⟩
  | .hbm, ⟨3, _⟩ => ⟨S8x2048x8192, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8x2048x8192_S8x2048x4096_0_0_0 : S8x2048x8192.Slices ![0, 0, 0] S8x2048x4096
  slices_S8x2048x8192_S8x2048x4096_0_0_4096 : S8x2048x8192.Slices ![0, 0, 4096] S8x2048x4096
  bcast_S_S8x2048x4096 : S_.BroadcastsInDim S8x2048x4096 (![] : Fin 0 → Fin S8x2048x4096.rank)
  dot_S8x2048x1024_S8x8192x1024_S8x2048x8192_2_2_1_1_0_0_wf : DotDims.WF S8x2048x1024 S8x8192x1024 S8x2048x8192 [2] [2] [1] [1] [0] [0]
  dot_S8x2048x4096_S8x1024x4096_S8x2048x1024_2_2_1_1_0_0_wf : DotDims.WF S8x2048x4096 S8x1024x4096 S8x2048x1024 [2] [2] [1] [1] [0] [0]

variable [Facts₀]

def dot_S8x2048x1024_S8x8192x1024_S8x2048x8192_2_2_1_1_0_0 : DotDims S8x2048x1024 S8x8192x1024 S8x2048x8192 where
  lhsContracting := [2]
  rhsContracting := [2]
  lhsNonContracting := [1]
  rhsNonContracting := [1]
  lhsBatch := [0]
  rhsBatch := [0]
  wf := dot_S8x2048x1024_S8x8192x1024_S8x2048x8192_2_2_1_1_0_0_wf
def dot_S8x2048x4096_S8x1024x4096_S8x2048x1024_2_2_1_1_0_0 : DotDims S8x2048x4096 S8x1024x4096 S8x2048x1024 where
  lhsContracting := [2]
  rhsContracting := [2]
  lhsNonContracting := [1]
  rhsNonContracting := [1]
  lhsBatch := [0]
  rhsBatch := [0]
  wf := dot_S8x2048x4096_S8x1024x4096_S8x2048x1024_2_2_1_1_0_0_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotRows.lean ====
/-
  A matrix product of two operands that are BOTH contracted on their last axis (rows against rows: the left operand
  times the transpose of the right), with one contracted axis and no batch axis, read at an entry at the ideal values,
  for any dimension numbers record whose axis lists are the stated ones (a printed record satisfies each hypothesis by
  `rfl`). With the accumulator the zero constant, the product at entry (a, b) is the sum over the contracted coordinate
  `c` of the left operand's entry (a, c) times the right operand's entry (b, c).
-/
import proofs.«159509_j50105088475309_1_alg».proof.Proof.LibDot

noncomputable section

open scoped BigOperators

namespace Cert.LibDot

open Idealize.ShloMosaic Idealize.ShloMosaic.ValueIdx

/-- Rows against rows: an `M × K` by an `N × K` operand, each contracted on its last axis. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := rhsIdx_val_non d hlb hrb hln hrn (ix2 a b) ((contrEquiv1 d K hr hs).symm c) Nat.one_lt_two
  have r1 := (d.rhsIdx_val_of_single hrc (ix2 a b) ((contrEquiv1 d K hr hs).symm c)).trans c2
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDot

end
-- ==== Proof.Spec.lean ====
/-
  The gated feed-forward layer of eight experts as whole-array functions over the extended reals.

  For expert `e`, token `t` and intermediate feature `i`, with `x` the tokens and `wg`, `wu` the gate and up weights
  (each feature a row of length 1024):
      gate e t i = Σ_k x[e, t, k] · wg[e, i, k],      up e t i = Σ_k x[e, t, k] · wu[e, i, k],
      hidden e t i = (gate · logistic gate) · up,
  and for output feature `h`, with `wd` the down weights (each output feature a row of length 4096):
      result e t h = Σ_i hidden[e, t, i] · wd[e, h, i].
  The gate and up weights are the two halves of one array of 8192 rows per expert: rows 0 … 4095 and rows 4096 … 8191.
-/
import Idealize.ShloMosaic.Lib.ValueIdx
import Idealize.ShloMosaic.PureOps.Ideal.Laws

noncomputable section

open scoped BigOperators

namespace Cert.GatedMlp

open Idealize.ShloMosaic Idealize.ShloMosaic.ValueIdx

/-- Tokens, and the result: 8 experts × 2048 tokens × 1024 features. -/
abbrev STok : Shape := ⟨3, ![8, 2048, 1024]⟩
/-- One half (gate or up) of the first layer's weights: 8 × 4096 rows × 1024. -/
abbrev SHalf : Shape := ⟨3, ![8, 4096, 1024]⟩
/-- Both halves stacked: 8 × 8192 rows × 1024. -/
abbrev SBoth : Shape := ⟨3, ![8, 8192, 1024]⟩
/-- The hidden activations: 8 × 2048 tokens × 4096 features. -/
abbrev SHid : Shape := ⟨3, ![8, 2048, 4096]⟩
/-- The second layer's weights: 8 × 1024 rows × 4096. -/
abbrev SDown : Shape := ⟨3, ![8, 1024, 4096]⟩

/-- The inner product of token `(e, t)` with weight row `(e, r)`. -/
def proj {R : Nat} (x : STok.Idx → EReal) (w : (⟨3, ![8, R, 1024]⟩ : Shape).Idx → EReal) (e : Fin 8) (t : Fin 2048) (r : Fin R) : EReal :=
  ∑ k : Fin 1024, x (ix3 e t k) * w (ix3 e r k)

/-- `(g · logistic g) · u`. -/
def gated (g u : EReal) : EReal := (g * Ideal.logistic g) * u

/-- The hidden activations from the gate and up halves. -/
def hiddenOf (x : STok.Idx → EReal) (wg wu : SHalf.Idx → EReal) : SHid.Idx → EReal := fun j =>
  gated (proj x wg (j 0) (j 1) (j 2)) (proj x wu (j 0) (j 1) (j 2))

/-- The second layer: each hidden row against each down-weight row. -/
def down (a : SHid.Idx → EReal) (wd : SDown.Idx → EReal) : STok.Idx → EReal := fun j =>
  ∑ i : Fin 4096, a (ix3 (j 0) (j 1) i) * wd (ix3 (j 0) (j 2) i)

/-- The lower half (rows 0 … 4095) of the stacked weights. -/
def lowerHalf (w : SBoth.Idx → EReal) : SHalf.Idx → EReal := fun j =>
  w (ix3 (j 0) ⟨(j 1).val, by have h : (j 1).val < 4096 := (j 1).isLt; omega⟩ (j 2))

/-- The upper half (rows 4096 … 8191) of the stacked weights. -/
def upperHalf (w : SBoth.Idx → EReal) : SHalf.Idx → EReal := fun j =>
  w (ix3 (j 0) ⟨4096 + (j 1).val, by have h : (j 1).val < 4096 := (j 1).isLt; omega⟩ (j 2))

/-- The whole layer as one function of the three argument arrays. -/
def layer (x : STok.Idx → EReal) (w : SBoth.Idx → EReal) (wd : SDown.Idx → EReal) : STok.Idx → EReal :=
  down (hiddenOf x (lowerHalf w) (upperHalf w)) wd

end Cert.GatedMlp

end
-- ==== Proof.Payload.lean ====
/-
  What each kernel body stores, read at an entry, at the ideal values.

  The first body loads a block of 512 token rows and two blocks of 1024 weight rows (all rows of length 1024), forms
  the two products "token rows against weight rows" and stores `(g · logistic g) · u` entry by entry: entry (p, q)
  is the gated pair of the inner products of token row `p` with gate row `q` and with up row `q`.
  The second body loads 512 hidden rows and 1024 down-weight rows (rows of length 4096) and stores their product
  "rows against rows": entry (p, q) is the inner product of hidden row `p` with weight row `q`.
  The blocks carry a leading axis of extent one, which the bodies drop on loading and add back on storing; changes of
  float format are the identity here.
-/
import proofs.«159509_j50105088475309_1_alg».proof.Proof.Gen.KernelIdeal.Skeleton
import proofs.«159509_j50105088475309_1_alg».proof.Proof.LibDotRows
import proofs.«159509_j50105088475309_1_alg».proof.Proof.Spec
import Idealize.ShloMosaic.Lib.Pipeline.Value

noncomputable section

open scoped BigOperators

namespace Cert.KernelIdeal.Body

open Cert.KernelIdeal Cert.KernelIdeal.Gen Cert.GatedMlp
open Idealize.ShloMosaic Idealize.ShloMosaic.TcCoe Idealize.ShloMosaic.ValueIdx

/-- Dropping the leading unit coordinate of `(0, p, q)` leaves `(p, q)`. -/
theorem tail_ix3 {n1 n2 : Nat} (z : Fin 1) (p : Fin n1) (q : Fin n2) :
    (fun a : Fin 2 => (ix3 z p q : (⟨3, ![1, n1, n2]⟩ : Shape).Idx) a.succ) = ix2 p q :=
  funext fun a => match a with
    | ⟨0, _⟩ => rfl
    | ⟨1, _⟩ => rfl

/-- Putting the unit coordinate in front of `(p, q)` gives `(0, p, q)`. -/
theorem cons_ix2 {n1 n2 : Nat} (p : Fin n1) (q : Fin n2) :
    (Fin.cons ⟨0, Nat.one_pos⟩ (ix2 p q) : (⟨3, Matrix.vecCons 1 ![n1, n2]⟩ : Shape).Idx) = ix3 ⟨0, Nat.one_pos⟩ p q :=
  funext fun a => match a with
    | ⟨0, _⟩ => rfl
    | ⟨1, _⟩ => rfl
    | ⟨2, _⟩ => rfl

/-- The first body's product of squeezed blocks at `(p, q)`: token row `p` against weight row `q`. -/
theorem rows1024_apply (x0 : Vec Ideal S1x512x1024 .bf16) (x1 : Vec Ideal S1x1024x1024 .bf16) (p : Fin 512) (q : Fin 1024) :
    matmul (F := Ideal) (φ₁ := .bf16) (φ₂ := .bf16) dot_S512x1024_S1024x1024_S512x1024_1_1_0_0_n_n none
        (shapeCast S512x1024 x0 shapeCasts_S1x512x1024_S512x1024 : FVec Ideal S512x1024 .bf16)
        (shapeCast S1024x1024 x1 shapeCasts_S1x1024x1024_S1024x1024 : FVec Ideal S1024x1024 .bf16) (constant S512x1024 .f32 0x00000000#32) (ix2 p q)
      = ∑ k : Fin 1024, x0 (ix3 ⟨0, Nat.one_pos⟩ p k) * x1 (ix3 ⟨0, Nat.one_pos⟩ q k) := by
  refine (Cert.LibDot.matmul_11_zero_apply dot_S512x1024_S1024x1024_S512x1024_1_1_0_0_n_n rfl rfl rfl rfl rfl rfl none _ _ p q).trans ?_
  refine Finset.sum_congr rfl fun k _ => ?_
  rw [shapeCast_dropUnit_apply ![512, 1024], shapeCast_dropUnit_apply ![1024, 1024], cons_ix2, cons_ix2]

/-- The second body's product of squeezed blocks at `(p, q)`: hidden row `p` against down-weight row `q`. -/
theorem rows4096_apply (x0 : Vec Ideal S1x512x4096 .bf16) (x1 : Vec Ideal S1x1024x4096 .bf16) (p : Fin 512) (q : Fin 1024) :
    matmul (F := Ideal) (φ₁ := .bf16) (φ₂ := .bf16) dot_S512x4096_S1024x4096_S512x1024_1_1_0_0_n_n none
        (shapeCast S512x4096 x0 shapeCasts_S1x512x4096_S512x4096 : FVec Ideal S512x4096 .bf16)
        (shapeCast S1024x4096 x1 shapeCasts_S1x1024x4096_S1024x4096 : FVec Ideal S1024x4096 .bf16) (constant S512x1024 .f32 0x00000000#32) (ix2 p q)
      = ∑ k : Fin 4096, x0 (ix3 ⟨0, Nat.one_pos⟩ p k) * x1 (ix3 ⟨0, Nat.one_pos⟩ q k) := by
  refine (Cert.LibDot.matmul_11_zero_apply dot_S512x4096_S1024x4096_S512x1024_1_1_0_0_n_n rfl rfl rfl rfl rfl rfl none _ _ p q).trans ?_
  refine Finset.sum_congr rfl fun k _ => ?_
  rw [shapeCast_dropUnit_apply ![512, 4096], shapeCast_dropUnit_apply ![1024, 4096], cons_ix2, cons_ix2]

/-- The first body's stored value at `(0, p, q)`: the gated pair of token row `p`'s inner products with gate row `q`
    and with up row `q`. -/
theorem gateUp_payload_apply (x0 : Vec Ideal S1x512x1024 .bf16) (x1 x2 : Vec Ideal S1x1024x1024 .bf16)
    (p : Fin 512) (q : Fin 1024) :
    k0_pay1 x0 x1 x2 (ix3 ⟨0, Nat.one_pos⟩ p q)
      = gated (∑ k : Fin 1024, x0 (ix3 ⟨0, Nat.one_pos⟩ p k) * x1 (ix3 ⟨0, Nat.one_pos⟩ q k))
          (∑ k : Fin 1024, x0 (ix3 ⟨0, Nat.one_pos⟩ p k) * x2 (ix3 ⟨0, Nat.one_pos⟩ q k)) := by
  unfold k0_pay1
  refine (shapeCast_addUnit_apply ![512, 1024] _ _ (ix3 ⟨0, Nat.one_pos⟩ p q)).trans ?_
  rw [tail_ix3]
  unfold gated
  rw [← rows1024_apply x0 x1 p q, ← rows1024_apply x0 x2 p q]
  rfl

/-- The second body's stored value at `(0, p, q)`: hidden row `p`'s inner product with down-weight row `q`. -/
theorem down_payload_apply (x0 : Vec Ideal S1x512x4096 .bf16) (x1 : Vec Ideal S1x1024x4096 .bf16)
    (p : Fin 512) (q : Fin 1024) :
    k1_pay1 x0 x1 (ix3 ⟨0, Nat.one_pos⟩ p q)
      = ∑ k : Fin 4096, x0 (ix3 ⟨0, Nat.one_pos⟩ p k) * x1 (ix3 ⟨0, Nat.one_pos⟩ q k) := by
  unfold k1_pay1
  refine (shapeCast_addUnit_apply ![512, 1024] _ _ (ix3 ⟨0, Nat.one_pos⟩ p q)).trans ?_
  rw [tail_ix3]
  exact rows4096_apply x0 x1 p q

end Cert.KernelIdeal.Body

end
-- ==== Proof.BlockValue.lean ====
/-
  A block of a result is the whole-array function at the block's position.

  First call: the block at expert `e`, token block `tb` (512 tokens) and feature block `fb` (1024 features) is computed
  from the token block (e, tb) and the gate and up weight blocks (e, fb); if those blocks are the corresponding parts
  of whole arrays, the stored entry (p, q) is the hidden activation at (e, 512·tb + p, 1024·fb + q).
  Second call: the block at expert `e` and token block `tb` is computed from the hidden rows of (e, tb) and all down
  weights of expert `e`; the stored entry (p, q) is the result at (e, 512·tb + p, q).
  The hypotheses say "this block is that part of the array" coordinate by coordinate, so that they can be met by any
  description of a block's position.
-/
import proofs.«159509_j50105088475309_1_alg».proof.Proof.Payload

noncomputable section

open scoped BigOperators

namespace Cert.KernelIdeal.Body

open Cert.KernelIdeal Cert.KernelIdeal.Gen Cert.GatedMlp
open Idealize.ShloMosaic Idealize.ShloMosaic.TcCoe Idealize.ShloMosaic.ValueIdx

/-- An index of a block with a leading unit axis is `(0, p, q)`. -/
theorem exists_ix3_unit {n1 n2 : Nat} (j : (⟨3, ![1, n1, n2]⟩ : Shape).Idx) :
    ∃ (p : Fin n1) (q : Fin n2), j = ix3 ⟨0, Nat.one_pos⟩ p q := by
  refine ⟨j 1, j 2, ?_⟩
  have h := eq_ix3 j
  have h0 : j 0 = ⟨0, Nat.one_pos⟩ := Fin.ext (by have h : (j 0).val < 1 := (j 0).isLt; show (j 0).val = 0; omega)
  rw [h0] at h
  exact h

/-- The first call's block, entry by entry, is the hidden activation at the block's position. -/
theorem hidden_block (x0 : Vec Ideal S1x512x1024 .bf16) (x1 x2 : Vec Ideal S1x1024x1024 .bf16)
    (X : STok.Idx → EReal) (G U : SHalf.Idx → EReal) (e tb fb : Nat)
    (h0 : ∀ (y : S1x512x1024.Idx) (K : STok.Idx), (K 0).val = e → (K 1).val = tb * 512 + (y 1).val → (K 2).val = (y 2).val → x0 y = X K)
    (h1 : ∀ (y : S1x1024x1024.Idx) (K : SHalf.Idx), (K 0).val = e → (K 1).val = fb * 1024 + (y 1).val → (K 2).val = (y 2).val → x1 y = G K)
    (h2 : ∀ (y : S1x1024x1024.Idx) (K : SHalf.Idx), (K 0).val = e → (K 1).val = fb * 1024 + (y 1).val → (K 2).val = (y 2).val → x2 y = U K)
    (j : S1x512x1024.Idx) (J : SHid.Idx) (hJ0 : (J 0).val = e) (hJ1 : (J 1).val = tb * 512 + (j 1).val)
    (hJ2 : (J 2).val = fb * 1024 + (j 2).val) :
    k0_pay1 x0 x1 x2 j = hiddenOf X G U J := by
  obtain ⟨p, q, rfl⟩ := exists_ix3_unit j
  rw [gateUp_payload_apply]
  unfold hiddenOf proj
  congr 1
  · refine Finset.sum_congr rfl fun k _ => ?_
    rw [h0 (ix3 ⟨0, Nat.one_pos⟩ p k) (ix3 (J 0) (J 1) k) hJ0 hJ1 rfl,
      h1 (ix3 ⟨0, Nat.one_pos⟩ q k) (ix3 (J 0) (J 2) k) hJ0 hJ2 rfl]
  · refine Finset.sum_congr rfl fun k _ => ?_
    rw [h0 (ix3 ⟨0, Nat.one_pos⟩ p k) (ix3 (J 0) (J 1) k) hJ0 hJ1 rfl,
      h2 (ix3 ⟨0, Nat.one_pos⟩ q k) (ix3 (J 0) (J 2) k) hJ0 hJ2 rfl]

/-- The second call's block, entry by entry, is the result at the block's position. -/
theorem down_block (x0 : Vec Ideal S1x512x4096 .bf16) (x1 : Vec Ideal S1x1024x4096 .bf16)
    (A : SHid.Idx → EReal) (D : SDown.Idx → EReal) (e tb : Nat)
    (h0 : ∀ (y : S1x512x4096.Idx) (K : SHid.Idx), (K 0).val = e → (K 1).val = tb * 512 + (y 1).val → (K 2).val = (y 2).val → x0 y = A K)
    (h1 : ∀ (y : S1x1024x4096.Idx) (K : SDown.Idx), (K 0).val = e → (K 1).val = (y 1).val → (K 2).val = (y 2).val → x1 y = D K)
    (j : S1x512x1024.Idx) (J : STok.Idx) (hJ0 : (J 0).val = e) (hJ1 : (J 1).val = tb * 512 + (j 1).val)
    (hJ2 : (J 2).val = (j 2).val) :
    k1_pay1 x0 x1 j = down A D J := by
  obtain ⟨p, q, rfl⟩ := exists_ix3_unit j
  rw [down_payload_apply]
  unfold down
  refine Finset.sum_congr rfl fun k _ => ?_
  rw [h0 (ix3 ⟨0, Nat.one_pos⟩ p k) (ix3 (J 0) (J 1) k) hJ0 hJ1 rfl,
    h1 (ix3 ⟨0, Nat.one_pos⟩ q k) (ix3 (J 0) (J 2) k) hJ0 hJ2 rfl]

end Cert.KernelIdeal.Body

end
-- ==== Proof.Region0.lean ====
/-
  The array the first call leaves: the hidden activations of the three arrays it reads.

  The call's grid is (expert, feature block, token block). At a point it reads the token block (expert, token block),
  the gate and up weight blocks (expert, feature block), and writes the output block (expert, token block, feature
  block). So what a point writes back is that block of ONE whole-array function — the hidden activations of the whole
  token, gate and up arrays as the call finds them —, the output blocks tile the output array, and the array after the
  call is that function. Everything is stated for arbitrary contents `V` at the call's entry.
-/
import proofs.«159509_j50105088475309_1_alg».proof.Proof.Gen.KernelIdeal.Frame
import proofs.«159509_j50105088475309_1_alg».proof.Proof.BlockValue
import Idealize.ShloMosaic.Lib.Pipeline.Value

set_option maxRecDepth 16384

noncomputable section

open scoped BigOperators

namespace Cert.KernelIdeal.Region0

open Cert.KernelIdeal Cert.KernelIdeal.Gen Cert.GatedMlp Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The token array as the call finds it. -/
abbrev tokens (c : Dev nD) : Vec Ideal S8x2048x1024 .bf16 := V c main_v2
/-- The gate weights as the call finds them. -/
abbrev gateW (c : Dev nD) : Vec Ideal S8x4096x1024 .bf16 := V c main_v3
/-- The up weights as the call finds them. -/
abbrev upW (c : Dev nD) : Vec Ideal S8x4096x1024 .bf16 := V c main_v4

theorem zero3 : (![0, 0, 0] : Fin 3 → Nat) = fun _ => 0 := funext fun a => by fin_cases a <;> rfl

/-- The block indices, decided over the 128 grid points: the token block follows the output's expert and token
    block; the weight blocks follow its expert and feature block; the contracted axis is never blocked. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = win0_3.index t (2 : Fin 3)
    ∧ win0_1.index t (2 : Fin 3) = 0
    ∧ win0_2.index t (0 : Fin 3) = win0_3.index t (0 : Fin 3) ∧ win0_2.index t (1 : Fin 3) = win0_3.index t (2 : Fin 3)
    ∧ win0_2.index t (2 : Fin 3) = 0 :=
  (by decide +kernel : ∀ t : Fin grid0.N, _)

/-- Every output block is some point's. -/
theorem idx_onto : ∀ (q0 : Fin 8) (q1 : Fin 4) (q2 : Fin 4), ∃ t : Fin cfg0.N, win0_3.index t = ![q0.val, q1.val, q2.val] :=
  (by decide +kernel : ∀ (q0 : Fin 8) (q1 : Fin 4) (q2 : Fin 4), ∃ t : Fin grid0.N, win0_3.index t = ![q0.val, q1.val, q2.val])

/-- The token block at a point is the part of the token array at its block index. -/
theorem tokens_block (c : Dev nD) (t : Fin cfg0.N) (y : S1x512x1024.Idx) (K : S8x2048x1024.Idx)
    (k0 : (K 0).val = win0_0.index t (0 : Fin 3)) (k1 : (K 1).val = win0_0.index t (1 : Fin 3) * 512 + (y 1).val)
    (k2 : (K 2).val = win0_0.index t (2 : Fin 3) * 1024 + (y 2).val) :
    iblk0 V c 0 t y = tokens V c K := by
  show V c main_v2 (((cfg0.win 0).blk t).view.emb y) = V c main_v2 K
  congr 1
  funext a; apply Fin.ext
  match a with
  | ⟨0, _⟩ => show win0_0.index t (0 : Fin 3) * 1 + 1 * (y 0).val = (K 0).val; have h : (y 0).val < 1 := (y 0).isLt; omega
  | ⟨1, _⟩ => show win0_0.index t (1 : Fin 3) * 512 + 1 * (y 1).val = (K 1).val; omega
  | ⟨2, _⟩ => show win0_0.index t (2 : Fin 3) * 1024 + 1 * (y 2).val = (K 2).val; omega

/-- The gate block at a point is the part of the gate weights at its block index. -/
theorem gate_block (c : Dev nD) (t : Fin cfg0.N) (y : S1x1024x1024.Idx) (K : S8x4096x1024.Idx)
    (k0 : (K 0).val = win0_1.index t (0 : Fin 3)) (k1 : (K 1).val = win0_1.index t (1 : Fin 3) * 1024 + (y 1).val)
    (k2 : (K 2).val = win0_1.index t (2 : Fin 3) * 1024 + (y 2).val) :
    iblk0 V c 1 t y = gateW V c K := by
  show V c main_v3 (((cfg0.win 1).blk t).view.emb y) = V c main_v3 K
  congr 1
  funext a; apply Fin.ext
  match a with
  | ⟨0, _⟩ => show win0_1.index t (0 : Fin 3) * 1 + 1 * (y 0).val = (K 0).val; have h : (y 0).val < 1 := (y 0).isLt; omega
  | ⟨1, _⟩ => show win0_1.index t (1 : Fin 3) * 1024 + 1 * (y 1).val = (K 1).val; omega
  | ⟨2, _⟩ => show win0_1.index t (2 : Fin 3) * 1024 + 1 * (y 2).val = (K 2).val; omega

/-- The up block at a point is the part of the up weights at its block index. -/
theorem up_block (c : Dev nD) (t : Fin cfg0.N) (y : S1x1024x1024.Idx) (K : S8x4096x1024.Idx)
    (k0 : (K 0).val = win0_2.index t (0 : Fin 3)) (k1 : (K 1).val = win0_2.index t (1 : Fin 3) * 1024 + (y 1).val)
    (k2 : (K 2).val = win0_2.index t (2 : Fin 3) * 1024 + (y 2).val) :
    iblk0 V c 2 t y = upW V c K := by
  show V c main_v4 (((cfg0.win 2).blk t).view.emb y) = V c main_v4 K
  congr 1
  funext a; apply Fin.ext
  match a with
  | ⟨0, _⟩ => show win0_2.index t (0 : Fin 3) * 1 + 1 * (y 0).val = (K 0).val; have h : (y 0).val < 1 := (y 0).isLt; omega
  | ⟨1, _⟩ => show win0_2.index t (1 : Fin 3) * 1024 + 1 * (y 1).val = (K 1).val; omega
  | ⟨2, _⟩ => show win0_2.index t (2 : Fin 3) * 1024 + 1 * (y 2).val = (K 2).val; omega

/-- What a point writes back is its block of the hidden activations of the arrays the call finds. -/
theorem flushed_eq (c : Dev nD) (t : Fin cfg0.N) :
    (dat0 (F := Ideal) V c).flushed 3 t
      = ((cfg0.win 3).blk t).view.read (Elt Ideal) (hiddenOf (tokens V c) (gateW V c) (upW V c)) := by
  show (cfg0.win 3).cut (grid0.coords t) ((dat0 V c).after 3 t) = _
  rw [after0_3]
  unfold out0_3
  rw [View.canon_unit_zero zero3]
  simp only [View.ld_unit_zero (S := S1x512x1024) zero3, View.ld_unit_zero (S := S1x1024x1024) zero3]
  obtain ⟨e0, e1, e2, e3, e4, e5, e6, e7, e8⟩ := idx_facts t
  funext j
  show k0_pay1 (iblk0 V c 0 t) (iblk0 V c 1 t) (iblk0 V c 2 t) j
    = hiddenOf (tokens V c) (gateW V c) (upW V c) (((cfg0.win 3).blk t).view.emb j)
  refine hidden_block (iblk0 V c 0 t) (iblk0 V c 1 t) (iblk0 V c 2 t) (tokens V c) (gateW V c) (upW V c)
    (win0_3.index t (0 : Fin 3)) (win0_3.index t (1 : Fin 3)) (win0_3.index t (2 : Fin 3))
    (fun y K k0 k1 k2 => tokens_block V c t y K (by omega) (by omega) (by omega))
    (fun y K k0 k1 k2 => gate_block V c t y K (by omega) (by omega) (by omega))
    (fun y K k0 k1 k2 => up_block V c t y K (by omega) (by omega) (by omega))
    j (((cfg0.win 3).blk t).view.emb j) ?_ ?_ ?_
  · show win0_3.index t (0 : Fin 3) * 1 + 1 * (j 0).val = win0_3.index t (0 : Fin 3)
    have h : (j 0).val < 1 := (j 0).isLt; omega
  · show win0_3.index t (1 : Fin 3) * 512 + 1 * (j 1).val = win0_3.index t (1 : Fin 3) * 512 + (j 1).val; omega
  · show win0_3.index t (2 : Fin 3) * 1024 + 1 * (j 2).val = win0_3.index t (2 : Fin 3) * 1024 + (j 2).val; omega

/-- An index of the output array is in a point's block iff each coordinate is in the block's range on its axis. -/
theorem mem_blk (t : Fin cfg0.N) (i : S8x2048x4096.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v6).slice (win0_3.rect t)).set ↔ _
  rw [View.set_slice_whole, Rect.mem_set_unit]
  exact Iff.rfl

/-- The output blocks tile the output array: every index is in the block of the point with its expert, its token
    block and its feature block. -/
theorem cover (i : S8x2048x4096.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 4096 := (i 2).isLt
  obtain ⟨t, ht⟩ := idx_onto ⟨(i 0).val, hi0⟩ ⟨(i 1).val / 512, by omega⟩ ⟨(i 2).val / 1024, by omega⟩
  have q0 : win0_3.index t (0 : Fin 3) = (i 0).val := congrFun ht 0
  have q1 : win0_3.index t (1 : Fin 3) = (i 1).val / 512 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The output array after the call: the hidden activations of the token, gate and up arrays the call found. -/
theorem final (c : Dev nD) :
    (dat0 (F := Ideal) V c).arrAt 3 cfg0.N = hiddenOf (tokens V c) (gateW V c) (upW V c) :=
  (dat0 V c).arrAt_eq_of_cover 3 _ (fun t _ => flushed_eq V c t) (cover)

end Cert.KernelIdeal.Region0

end
-- ==== Proof.Region1.lean ====
/-
  The array the second call leaves: each hidden row against each down-weight row.

  The call's grid is (expert, token block). At a point it reads the hidden rows of (expert, token block) — all 4096
  features — and all down weights of the expert, and writes the output block (expert, token block). So what a point
  writes back is that block of ONE whole-array function of the hidden array and the down weights as the call finds
  them, the output blocks tile the output array, and the array after the call is that function. Everything is stated
  for arbitrary contents `V` at the call's entry.
-/
import proofs.«159509_j50105088475309_1_alg».proof.Proof.Gen.KernelIdeal.Frame
import proofs.«159509_j50105088475309_1_alg».proof.Proof.BlockValue
import Idealize.ShloMosaic.Lib.Pipeline.Value

set_option maxRecDepth 16384

noncomputable section

open scoped BigOperators

namespace Cert.KernelIdeal.Region1

open Cert.KernelIdeal Cert.KernelIdeal.Gen Cert.GatedMlp Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The hidden array as the call finds it. -/
abbrev hiddenArr (c : Dev nD) : Vec Ideal S8x2048x4096 .bf16 := V c main_v6
/-- The down weights as the call finds them. -/
abbrev downW (c : Dev nD) : Vec Ideal S8x1024x4096 .bf16 := V c main_v5

theorem zero3 : (![0, 0, 0] : Fin 3 → Nat) = fun _ => 0 := funext fun a => by fin_cases a <;> rfl

/-- The block indices, decided over the 32 grid points: the hidden block follows the output's expert and token block,
    the weight block its expert; neither the contracted axis nor the output's feature axis is blocked. -/
theorem idx_facts : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 3) = win1_2.index t (0 : Fin 3) ∧ win1_1.index t (1 : Fin 3) = 0
    ∧ win1_1.index t (2 : Fin 3) = 0
    ∧ win1_2.index t (2 : Fin 3) = 0 :=
  (by decide +kernel : ∀ t : Fin grid1.N, _)

/-- Every output block is some point's. -/
theorem idx_onto : ∀ (q0 : Fin 8) (q1 : Fin 4), ∃ t : Fin cfg1.N, win1_2.index t = ![q0.val, q1.val, 0] :=
  (by decide +kernel : ∀ (q0 : Fin 8) (q1 : Fin 4), ∃ t : Fin grid1.N, win1_2.index t = ![q0.val, q1.val, 0])

/-- The hidden block at a point is the part of the hidden array at its block index. -/
theorem hidden_block_read (c : Dev nD) (t : Fin cfg1.N) (y : S1x512x4096.Idx) (K : S8x2048x4096.Idx)
    (k0 : (K 0).val = win1_0.index t (0 : Fin 3)) (k1 : (K 1).val = win1_0.index t (1 : Fin 3) * 512 + (y 1).val)
    (k2 : (K 2).val = win1_0.index t (2 : Fin 3) * 4096 + (y 2).val) :
    iblk1 V c 0 t y = hiddenArr V c K := by
  show V c main_v6 (((cfg1.win 0).blk t).view.emb y) = V c main_v6 K
  congr 1
  funext a; apply Fin.ext
  match a with
  | ⟨0, _⟩ => show win1_0.index t (0 : Fin 3) * 1 + 1 * (y 0).val = (K 0).val; have h : (y 0).val < 1 := (y 0).isLt; omega
  | ⟨1, _⟩ => show win1_0.index t (1 : Fin 3) * 512 + 1 * (y 1).val = (K 1).val; omega
  | ⟨2, _⟩ => show win1_0.index t (2 : Fin 3) * 4096 + 1 * (y 2).val = (K 2).val; omega

/-- The weight block at a point is the expert's part of the down weights. -/
theorem down_block_read (c : Dev nD) (t : Fin cfg1.N) (y : S1x1024x4096.Idx) (K : S8x1024x4096.Idx)
    (k0 : (K 0).val = win1_1.index t (0 : Fin 3)) (k1 : (K 1).val = win1_1.index t (1 : Fin 3) * 1024 + (y 1).val)
    (k2 : (K 2).val = win1_1.index t (2 : Fin 3) * 4096 + (y 2).val) :
    iblk1 V c 1 t y = downW V c K := by
  show V c main_v5 (((cfg1.win 1).blk t).view.emb y) = V c main_v5 K
  congr 1
  funext a; apply Fin.ext
  match a with
  | ⟨0, _⟩ => show win1_1.index t (0 : Fin 3) * 1 + 1 * (y 0).val = (K 0).val; have h : (y 0).val < 1 := (y 0).isLt; omega
  | ⟨1, _⟩ => show win1_1.index t (1 : Fin 3) * 1024 + 1 * (y 1).val = (K 1).val; omega
  | ⟨2, _⟩ => show win1_1.index t (2 : Fin 3) * 4096 + 1 * (y 2).val = (K 2).val; omega

/-- What a point writes back is its block of the second layer applied to the arrays the call finds. -/
theorem flushed_eq (c : Dev nD) (t : Fin cfg1.N) :
    (dat1 (F := Ideal) V c).flushed 2 t
      = ((cfg1.win 2).blk t).view.read (Elt Ideal) (down (hiddenArr V c) (downW V c)) := by
  show (cfg1.win 2).cut (grid1.coords t) ((dat1 V c).after 2 t) = _
  rw [after1_2]
  unfold out1_2
  rw [View.canon_unit_zero zero3]
  simp only [View.ld_unit_zero (S := S1x512x4096) zero3, View.ld_unit_zero (S := S1x1024x4096) zero3]
  obtain ⟨e0, e1, e2, e3, e4, e5, e6⟩ := idx_facts t
  funext j
  show k1_pay1 (iblk1 V c 0 t) (iblk1 V c 1 t) j
    = down (hiddenArr V c) (downW V c) (((cfg1.win 2).blk t).view.emb j)
  refine down_block (iblk1 V c 0 t) (iblk1 V c 1 t) (hiddenArr V c) (downW V c)
    (win1_2.index t (0 : Fin 3)) (win1_2.index t (1 : Fin 3))
    (fun y K k0 k1 k2 => hidden_block_read V c t y K (by omega) (by omega) (by omega))
    (fun y K k0 k1 k2 => down_block_read V c t y K (by omega) (by omega) (by omega))
    j (((cfg1.win 2).blk t).view.emb j) ?_ ?_ ?_
  · show win1_2.index t (0 : Fin 3) * 1 + 1 * (j 0).val = win1_2.index t (0 : Fin 3)
    have h : (j 0).val < 1 := (j 0).isLt; omega
  · show win1_2.index t (1 : Fin 3) * 512 + 1 * (j 1).val = win1_2.index t (1 : Fin 3) * 512 + (j 1).val; omega
  · show win1_2.index t (2 : Fin 3) * 1024 + 1 * (j 2).val = (j 2).val; omega

/-- An index of the output array is in a point's block iff each coordinate is in the block's range on its axis. -/
theorem mem_blk (t : Fin cfg1.N) (i : S8x2048x1024.Idx) :
    i ∈ ((cfg1.win 2).blk t).view.set ↔ ∀ a : Fin 3, win1_2.index t a * S1x512x1024.size a ≤ (i a).val
      ∧ (i a).val < win1_2.index t a * S1x512x1024.size a + S1x512x1024.size a := by
  show i ∈ ((View.whole main_v7).slice (win1_2.rect t)).set ↔ _
  rw [View.set_slice_whole, Rect.mem_set_unit]
  exact Iff.rfl

/-- The output blocks tile the output array: every index is in the block of the point with its expert and its token
    block. -/
theorem cover (i : S8x2048x1024.Idx) :
    ∃ t : Fin cfg1.N, (cfg1.win 2).flush t = true ∧ i ∈ ((cfg1.win 2).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_2.index t (0 : Fin 3) = (i 0).val := congrFun ht 0
  have q1 : win1_2.index t (1 : Fin 3) = (i 1).val / 512 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 1024 ≤ (i 2).val ∧ (i 2).val < win1_2.index t (2 : Fin 3) * 1024 + 1024; omega

/-- The output array after the call: the second layer of the hidden array and the down weights the call found. -/
theorem final (c : Dev nD) :
    (dat1 (F := Ideal) V c).arrAt 2 cfg1.N = down (hiddenArr V c) (downW V c) :=
  (dat1 V c).arrAt_eq_of_cover 2 _ (fun t _ => flushed_eq V c t) (cover)

end Cert.KernelIdeal.Region1

end
-- ==== Proof.KernelValue.lean ====
/-
  The kernel program's result array as one function of its three arguments.

  Before the first call the host cuts the stacked weights into their lower and upper halves and narrows every array's
  float format, which changes no value here; so the first call finds the tokens, the two halves and the down weights
  themselves. The first call leaves the hidden activations of the tokens and the two halves (and touches nothing
  else), the second call finds them with the down weights and leaves the second layer of both: the whole layer of
  the three arguments.
-/
import proofs.«159509_j50105088475309_1_alg».proof.Proof.Region0
import proofs.«159509_j50105088475309_1_alg».proof.Proof.Region1
import Idealize.ShloMosaic.Lib.StableHlo.Run

set_option maxRecDepth 16384

noncomputable section

open scoped BigOperators

namespace Cert.KernelIdeal.Whole

open Cert.KernelIdeal Cert.KernelIdeal.Gen Cert.GatedMlp
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The three arguments at launch, as functions of an index. -/
abbrev argX (c : Dev nD) : STok.Idx → EReal := m ((c : Thread nD τ).loc main_arg0)
abbrev argW (c : Dev nD) : SBoth.Idx → EReal := m ((c : Thread nD τ).loc main_arg1)
abbrev argD (c : Dev nD) : SDown.Idx → EReal := m ((c : Thread nD τ).loc main_arg2)

/-- The first call finds the tokens themselves (their format narrowed). -/
theorem tokens_entry (c : Dev nD) : (Region0.tokens (V1 m ρ) c : STok.Idx → EReal) = argX m c := by
  show StableHlo.after hostOps0 (W0 m ρ c) (Proc.devRef .tc main_v2) = _
  after_results
  rfl

/-- The first call finds the down weights themselves (their format narrowed). -/
theorem down_entry1 (c : Dev nD) : (V1 m ρ c main_v5 : SDown.Idx → EReal) = argD m c := by
  show StableHlo.after hostOps0 (W0 m ρ c) (Proc.devRef .tc main_v5) = _
  after_results
  rfl

/-- The first call's gate weights are the lower half of the stacked weights. -/
theorem gate_entry (c : Dev nD) : (Region0.gateW (V1 m ρ) c : SHalf.Idx → EReal) = lowerHalf (argW m c) := by
  show StableHlo.after hostOps0 (W0 m ρ c) (Proc.devRef .tc main_v3) = _
  after_results
  funext j
  show extractStridedSlice S8x4096x1024 ![0, 0, 0] (argW m c) slices_S8x8192x1024_S8x4096x1024_0_0_0 j = _
  exact extractStridedSlice_apply ![0, 0, 0] (argW m c) slices_S8x8192x1024_S8x4096x1024_0_0_0 j _ (fun a => match a with
    | ⟨0, _⟩ => by show (j 0).val = 0 + (j 0).val; omega
    | ⟨1, _⟩ => by show (j 1).val = 0 + (j 1).val; omega
    | ⟨2, _⟩ => by show (j 2).val = 0 + (j 2).val; omega)

/-- The first call's up weights are the upper half of the stacked weights. -/
theorem up_entry (c : Dev nD) : (Region0.upW (V1 m ρ) c : SHalf.Idx → EReal) = upperHalf (argW m c) := by
  show StableHlo.after hostOps0 (W0 m ρ c) (Proc.devRef .tc main_v4) = _
  after_results
  funext j
  show extractStridedSlice S8x4096x1024 ![0, 4096, 0] (argW m c) slices_S8x8192x1024_S8x4096x1024_0_4096_0 j = _
  exact extractStridedSlice_apply ![0, 4096, 0] (argW m c) slices_S8x8192x1024_S8x4096x1024_0_4096_0 j _ (fun a => match a with
    | ⟨0, _⟩ => by show (j 0).val = 0 + (j 0).val; omega
    | ⟨1, _⟩ => by show 4096 + (j 1).val = 4096 + (j 1).val; omega
    | ⟨2, _⟩ => by show (j 2).val = 0 + (j 2).val; omega)

/-- The second call finds the hidden activations of the tokens and the two halves. -/
theorem hidden_entry (c : Dev nD) :
    (Region1.hiddenArr (V2 m ρ) c : SHid.Idx → EReal) = hiddenOf (argX m c) (lowerHalf (argW m c)) (upperHalf (argW m c)) :=
  (W2_arr m ρ c 3).trans ((Region0.final (V1 m ρ) c).trans (by rw [tokens_entry m ρ c, gate_entry m ρ c, up_entry m ρ c]))

/-- The second call finds the down weights themselves: the first call does not touch them. -/
theorem down_entry (c : Dev nD) : (Region1.downW (V2 m ρ) c : SDown.Idx → EReal) = argD m c :=
  (W2_of_ne m ρ c main_v5 (by decide)).trans (down_entry1 m ρ c)

/-- The result array at the end of the run is the whole layer of the three arguments. -/
theorem result_eq (c : Dev nD) :
    (W3 m ρ c (Proc.devRef .tc main_v7) : STok.Idx → EReal) = layer (argX m c) (argW m c) (argD m c) :=
  (W3_arr m ρ c 2).trans ((Region1.final (V2 m ρ) c).trans (by rw [hidden_entry m ρ c, down_entry m ρ c]; rfl))

end Cert.KernelIdeal.Whole

end
-- ==== Proof.Consts.lean ====
/-
  The one float pattern this certificate evaluates: the binary32 word 0x3F800000 is the number one.
-/
import Idealize.ShloMosaic.PureOps.Ideal.Laws

noncomputable section

namespace Cert.Consts

open Idealize.ShloMosaic

/-- Sign 0, biased exponent 127, significand 0: the number one, as a real. -/
theorem ofBits_one_f32_coe : Ideal.ofBits .f32 0x3F800000#32 = ((1 : ℝ) : EReal) := by
  simp [Ideal.ofBits, Ideal.ieee, -EReal.coe_mul]; norm_num

/-- The same word as the extended reals' one. -/
theorem ofBits_one_f32 : Ideal.ofBits .f32 0x3F800000#32 = 1 := by
  rw [ofBits_one_f32_coe, EReal.coe_one]

end Cert.Consts

end
-- ==== Proof.RefValue.lean ====
/-
  The reference program's result is the whole layer of its three arguments.

  The reference multiplies the tokens with the STACKED weights (one product of 8192 columns per token), cuts the
  product into its first and last 4096 columns, applies `g · (1 / (1 + exp(−g)))` to the first, multiplies by the
  second, and multiplies the result with the down weights. Column `i` of the stacked product is the inner product with
  row `i` of the stacked weights, so the first 4096 columns are the products with the lower half and the last 4096 with
  the upper half; and `1 / (1 + exp(−g))` is the logistic function by definition. The two ones are the binary32
  word 0x3F800000.
-/
import proofs.«159509_j50105088475309_1_alg».proof.Proof.Gen.ReferenceIdeal.Read
import proofs.«159509_j50105088475309_1_alg».proof.Proof.Spec
import proofs.«159509_j50105088475309_1_alg».proof.Proof.Consts

noncomputable section

open scoped BigOperators

namespace Cert.ReferenceIdeal.RefValue

open Cert.ReferenceIdeal Cert.ReferenceIdeal.Gen Cert.ReferenceIdeal.Read Cert.GatedMlp
open Idealize.ShloMosaic Idealize.ShloMosaic.TcCoe Idealize.SL.Sem Idealize.ShloMosaic.ValueIdx

/-- The first 4096 columns of the stacked product: the tokens against the lower half. -/
theorem gate_eq (x0 : (⟨S8x2048x1024, .f32⟩ : BufTy).Contents (Elt Ideal)) (x1 : (⟨S8x8192x1024, .f32⟩ : BufTy).Contents (Elt Ideal))
    (j : S8x2048x4096.Idx) :
    val_main_v1 (F := Ideal) x0 x1 j = proj x0 (lowerHalf x1) (j 0) (j 1) (j 2) := by
  rw [val_main_v1_apply, val_main_v0_apply]
  unfold proj
  refine Finset.sum_congr rfl fun k _ => ?_
  have el : lidx_main_v0 (idx_main_v1 j) k = ix3 (j 0) (j 1) k := funext fun a => Fin.ext (by
    match a with
    | ⟨0, _⟩ => rfl
    | ⟨1, _⟩ => rfl
    | ⟨2, _⟩ => rfl)
  have er : x1 (ridx_main_v0 (idx_main_v1 j) k) = lowerHalf x1 (ix3 (j 0) (j 2) k) := by
    unfold lowerHalf
    exact congrArg x1 (funext fun a => Fin.ext (by
      match a with
      | ⟨0, _⟩ => rfl
      | ⟨1, _⟩ => rfl
      | ⟨2, _⟩ => rfl))
  rw [el, er]
  rfl

/-- The last 4096 columns of the stacked product: the tokens against the upper half. -/
theorem up_eq (x0 : (⟨S8x2048x1024, .f32⟩ : BufTy).Contents (Elt Ideal)) (x1 : (⟨S8x8192x1024, .f32⟩ : BufTy).Contents (Elt Ideal))
    (j : S8x2048x4096.Idx) :
    val_main_v2 (F := Ideal) x0 x1 j = proj x0 (upperHalf x1) (j 0) (j 1) (j 2) := by
  rw [val_main_v2_apply, val_main_v0_apply]
  unfold proj
  refine Finset.sum_congr rfl fun k _ => ?_
  have el : lidx_main_v0 (idx_main_v2 j) k = ix3 (j 0) (j 1) k := funext fun a => Fin.ext (by
    match a with
    | ⟨0, _⟩ => rfl
    | ⟨1, _⟩ => rfl
    | ⟨2, _⟩ => rfl)
  have er : x1 (ridx_main_v0 (idx_main_v2 j) k) = upperHalf x1 (ix3 (j 0) (j 2) k) := by
    unfold upperHalf
    exact congrArg x1 (funext fun a => Fin.ext (by
      match a with
      | ⟨0, _⟩ => rfl
      | ⟨1, _⟩ => rfl
      | ⟨2, _⟩ => rfl))
  rw [el, er]
  rfl

/-- The reference's hidden activations are the spec's. -/
theorem hidden_eq (x0 : (⟨S8x2048x1024, .f32⟩ : BufTy).Contents (Elt Ideal)) (x1 : (⟨S8x8192x1024, .f32⟩ : BufTy).Contents (Elt Ideal))
    (j : S8x2048x4096.Idx) :
    val_main_v4 (F := Ideal) x0 x1 j = hiddenOf x0 (lowerHalf x1) (upperHalf x1) j := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, gate_eq, up_eq]
  simp only [Ideal.mulf_def, Ideal.hostDivf_def, Ideal.ofBits_def, Ideal.addf_def, Ideal.hostUnary_exp_def,
    Ideal.hostNegf_def, Ideal.negf_def, Cert.Consts.ofBits_one_f32]
  rfl

/-- The reference's result stage at an index is the whole layer of the arguments there. -/
theorem stage_apply (x0 : (⟨S8x2048x1024, .f32⟩ : BufTy).Contents (Elt Ideal)) (x1 : (⟨S8x8192x1024, .f32⟩ : BufTy).Contents (Elt Ideal))
    (x2 : (⟨S8x1024x4096, .f32⟩ : BufTy).Contents (Elt Ideal)) (i : S8x2048x1024.Idx) :
    val_main_v5 (F := Ideal) x0 x1 x2 i = layer x0 x1 x2 i := by
  rw [val_main_v5_apply]
  unfold layer down
  refine Finset.sum_congr rfl fun k _ => ?_
  have el : lidx_main_v5 i k = ix3 (i 0) (i 1) k := funext fun a => Fin.ext (by
    match a with
    | ⟨0, _⟩ => rfl
    | ⟨1, _⟩ => rfl
    | ⟨2, _⟩ => rfl)
  have er : ridx_main_v5 i k = ix3 (i 0) (i 2) k := funext fun a => Fin.ext (by
    match a with
    | ⟨0, _⟩ => rfl
    | ⟨1, _⟩ => rfl
    | ⟨2, _⟩ => rfl)
  rw [el, er]
  exact congrArg (· * x2 (ix3 (i 0) (i 2) k)) (hidden_eq x0 x1 (ix3 (i 0) (i 1) k))

/-- The reference's result stage is the whole layer of the arguments. -/
theorem stage_eq (x0 : (⟨S8x2048x1024, .f32⟩ : BufTy).Contents (Elt Ideal)) (x1 : (⟨S8x8192x1024, .f32⟩ : BufTy).Contents (Elt Ideal))
    (x2 : (⟨S8x1024x4096, .f32⟩ : BufTy).Contents (Elt Ideal)) :
    val_main_v5 (F := Ideal) x0 x1 x2 = layer x0 x1 x2 :=
  funext fun i => stage_apply x0 x1 x2 i

end Cert.ReferenceIdeal.RefValue

end
-- ==== Proof.lean ====
/-
  A gated feed-forward layer of eight experts: the kernel program against its plain reference, over the extended reals.

  Both programs compute, for expert `e`, token `t` and output feature `h`,
      result e t h = Σ_i hidden[e, t, i] · wd[e, h, i],     hidden e t i = (g · logistic g) · u,
      g = Σ_k x[e, t, k] · w[e, i, k],     u = Σ_k x[e, t, k] · w[e, 4096 + i, k]
  (Proof/Spec.lean). The kernel program cuts the stacked weights into halves on the host and runs two calls: the first
  writes the hidden array block by block (512 tokens × 1024 features per grid point, each block two products "rows
  against rows" and the gating), the second multiplies 512 hidden rows with the expert's down weights per grid
  point. Each block a point writes is the corresponding part of one whole-array function, and the blocks tile their
  arrays (Proof/Region0.lean, Proof/Region1.lean, over Proof/Payload.lean and Proof/BlockValue.lean); chained through
  the host stretch this makes the kernel's result the layer of its three arguments (Proof/KernelValue.lean, over the
  run in Proof/KernelRun.lean). The reference forms ONE product with the stacked weights and cuts it afterwards, and
  spells the logistic function as `1 / (1 + exp(−g))`: the same function (Proof/RefValue.lean). No law beyond
  reading both sides index by index is needed: sums are taken over the same index sets in the same products, so
  nothing depends on the inputs being finite. Changes of float format are the identity here.
-/
import proofs.«159509_j50105088475309_1_alg».proof.Defs
import proofs.«159509_j50105088475309_1_alg».proof.Proof.Gen.Kernel
import proofs.«159509_j50105088475309_1_alg».proof.Proof.Gen.Kernel.Frame
import proofs.«159509_j50105088475309_1_alg».proof.Proof.Gen.KernelIdeal
import proofs.«159509_j50105088475309_1_alg».proof.Proof.Gen.KernelIdeal.Frame
import proofs.«159509_j50105088475309_1_alg».proof.Proof.Gen.ReferenceIdeal
import proofs.«159509_j50105088475309_1_alg».proof.Proof.Gen.ReferenceIdeal.Run
import proofs.«159509_j50105088475309_1_alg».proof.Proof.Gen.ReferenceIdeal.Read
import proofs.«159509_j50105088475309_1_alg».proof.Proof.Gen.Pre_finite_inputs
import proofs.«159509_j50105088475309_1_alg».proof.Proof.KernelRun
import proofs.«159509_j50105088475309_1_alg».proof.Proof.KernelValue
import proofs.«159509_j50105088475309_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories agreeing on the three arguments both programs end with the whole layer of those arguments in their
    result arrays. -/
theorem algebraic : Cert.algebraic_KernelIdeal_ReferenceIdeal := by
  intro m ρ m' ρ' _ hagree
  refine ⟨fun c => Cert.GatedMlp.layer (Cert.KernelIdeal.Whole.argX m c) (Cert.KernelIdeal.Whole.argW m c)
    (Cert.KernelIdeal.Whole.argD m c), ?_, ?_⟩
  · exact (θ_run Cert.KernelIdeal.defs _ _).mono
      (fun r h c => ⟨(h c).1.trans (Cert.KernelIdeal.Whole.result_eq m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.stage_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
